-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x64 : Shape := ⟨2, ![80000, 64]⟩
abbrev S2x1280000 : Shape := ⟨2, ![2, 1280000]⟩
abbrev S64x64 : Shape := ⟨2, ![64, 64]⟩
abbrev S64 : Shape := ⟨1, ![64]⟩
abbrev S_ : Shape := ⟨0, ![]⟩

class Facts : Prop where
  bcast_S_S80000x64 : S_.BroadcastsInDim S80000x64 (![] : Fin 0 → Fin S80000x64.rank)
  reducesTo_S80000x64_S_d0_1 : S80000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S80000x64 .f32) (main_arg1 : IVec S2x1280000 32) (main_arg2 : FVec F S64x64 .f32) (main_arg3 : FVec F S64 .f32) : IVec S_ 1 :=
  let main_v0 : FVec F S80000x64 .f32 := Host.absf main_arg0
  let main_cst : FVec F S_ .f32 := constant S_ .f32 0x7F800000#32
  let main_v1 : FVec F S80000x64 .f32 := broadcastInDim S80000x64 ![] bcast_S_S80000x64 main_cst
  let main_v2 : IVec S80000x64 1 := cmpf .olt main_v0 main_v1
  let main_c : IVec S_ 1 := constantI S_ 1 1#1
  let main_v3 : IVec S_ 1 := (fun x v => Host.reduce IntOp.andi x v reducesTo_S80000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S80000x64 : Shape := ⟨2, ![80000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S80000 : Shape := ⟨1, ![80000]⟩
abbrev S1360000 : Shape := ⟨1, ![1360000]⟩
abbrev S_ : Shape := ⟨0, ![]⟩
abbrev S1360000x1 : Shape := ⟨2, ![1360000, 1]⟩
abbrev S8000x64 : Shape := ⟨2, ![8000, 64]⟩
abbrev S1360000x64 : Shape := ⟨2, ![1360000, 64]⟩
abbrev S1x64 : Shape := ⟨2, ![1, 64]⟩
abbrev S1280000x1 : Shape := ⟨2, ![1280000, 1]⟩
abbrev S1280000x64 : Shape := ⟨2, ![1280000, 64]⟩
abbrev S5120x64 : Shape := ⟨2, ![5120, 64]⟩
abbrev S5120 : Shape := ⟨1, ![5120]⟩

abbrev nBuf : Space → Nat
  | .hbm => 94
  | .vmem => 11
  | .smem => 0
  | _ => 0

abbrev bufTy : (tb : Table) → Fin (tcTables nBuf tb) → BufTy
  | .hbm, ⟨0, _⟩ => ⟨S80000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S1x1280000, .i32⟩
  | .hbm, ⟨5, _⟩ => ⟨S1280000, .i32⟩
  | .hbm, ⟨6, _⟩ => ⟨S1x1280000, .i32⟩
  | .hbm, ⟨7, _⟩ => ⟨S1280000, .i32⟩
  | .hbm, ⟨8, _⟩ => ⟨S80000, .i32⟩
  | .hbm, ⟨9, _⟩ => ⟨S1360000, .i32⟩
  | .hbm, ⟨10, _⟩ => ⟨S1360000, .i32⟩
  | .hbm, ⟨11, _⟩ => ⟨S_, .f32⟩
  | .hbm, ⟨12, _⟩ => ⟨S1360000, .f32⟩
  | .hbm, ⟨13, _⟩ => ⟨S_, .f32⟩
  | .hbm, ⟨14, _⟩ => ⟨S80000, .f32⟩
  | .hbm, ⟨15, _⟩ => ⟨S1360000x1, .i32⟩
  | .hbm, ⟨16, _⟩ => ⟨S80000, .f32⟩
  | .hbm, ⟨17, _⟩ => ⟨S80000, .f32⟩
  | .hbm, ⟨18, _⟩ => ⟨S_, .i32⟩
  | .hbm, ⟨19, _⟩ => ⟨S1360000, .i32⟩
  | .hbm, ⟨20, _⟩ => ⟨S1360000, .i1⟩
  | .hbm, ⟨21, _⟩ => ⟨S_, .i32⟩
  | .hbm, ⟨22, _⟩ => ⟨S1360000, .i32⟩
  | .hbm, ⟨23, _⟩ => ⟨S1360000, .i32⟩
  | .hbm, ⟨24, _⟩ => ⟨S1360000, .i32⟩
  | .hbm, ⟨25, _⟩ => ⟨S1360000x1, .i32⟩
  | .hbm, ⟨26, _⟩ => ⟨S1360000, .f32⟩
  | .hbm, ⟨27, _⟩ => ⟨S_, .i32⟩
  | .hbm, ⟨28, _⟩ => ⟨S1360000, .i32⟩
  | .hbm, ⟨29, _⟩ => ⟨S1360000, .i1⟩
  | .hbm, ⟨30, _⟩ => ⟨S_, .i32⟩
  | .hbm, ⟨31, _⟩ => ⟨S1360000, .i32⟩
  | .hbm, ⟨32, _⟩ => ⟨S1360000, .i32⟩
  | .hbm, ⟨33, _⟩ => ⟨S1360000, .i32⟩
  | .hbm, ⟨34, _⟩ => ⟨S1360000x1, .i32⟩
  | .hbm, ⟨35, _⟩ => ⟨S1360000, .f32⟩
  | .hbm, ⟨36, _⟩ => ⟨S1360000, .f32⟩
  | .hbm, ⟨37, _⟩ => ⟨S80000x64, .f32⟩
  | .hbm, ⟨38, _⟩ => ⟨S_, .i32⟩
  | .hbm, ⟨39, _⟩ => ⟨S1360000, .i32⟩
  | .hbm, ⟨40, _⟩ => ⟨S1360000, .i1⟩
  | .hbm, ⟨41, _⟩ => ⟨S_, .i32⟩
  | .hbm, ⟨42, _⟩ => ⟨S1360000, .i32⟩
  | .hbm, ⟨43, _⟩ => ⟨S1360000, .i32⟩
  | .hbm, ⟨44, _⟩ => ⟨S1360000, .i32⟩
  | .hbm, ⟨45, _⟩ => ⟨S1360000x1, .i32⟩
  | .hbm, ⟨46, _⟩ => ⟨S1360000x64, .f32⟩
  | .hbm, ⟨47, _⟩ => ⟨S1360000x1, .f32⟩
  | .hbm, ⟨48, _⟩ => ⟨S1360000x64, .f32⟩
  | .hbm, ⟨49, _⟩ => ⟨S1360000x64, .f32⟩
  | .hbm, ⟨50, _⟩ => ⟨S_, .f32⟩
  | .hbm, ⟨51, _⟩ => ⟨S80000x64, .f32⟩
  | .hbm, ⟨52, _⟩ => ⟨S1360000x1, .i32⟩
  | .hbm, ⟨53, _⟩ => ⟨S80000x64, .f32⟩
  | .hbm, ⟨54, _⟩ => ⟨S1x64, .f32⟩
  | .hbm, ⟨55, _⟩ => ⟨S80000x64, .f32⟩
  | .hbm, ⟨56, _⟩ => ⟨S80000x64, .f32⟩
  | .hbm, ⟨57, _⟩ => ⟨S_, .f32⟩
  | .hbm, ⟨58, _⟩ => ⟨S80000x64, .f32⟩
  | .hbm, ⟨59, _⟩ => ⟨S80000x64, .f32⟩
  | .hbm, ⟨60, _⟩ => ⟨S_, .i32⟩
  | .hbm, ⟨61, _⟩ => ⟨S1280000, .i32⟩
  | .hbm, ⟨62, _⟩ => ⟨S1280000, .i1⟩
  | .hbm, ⟨63, _⟩ => ⟨S_, .i32⟩
  | .hbm, ⟨64, _⟩ => ⟨S1280000, .i32⟩
  | .hbm, ⟨65, _⟩ => ⟨S1280000, .i32⟩
  | .hbm, ⟨66, _⟩ => ⟨S1280000, .i32⟩
  | .hbm, ⟨67, _⟩ => ⟨S1280000x1, .i32⟩
  | .hbm, ⟨68, _⟩ => ⟨S1280000x64, .f32⟩
  | .hbm, ⟨69, _⟩ => ⟨S_, .i32⟩
  | .hbm, ⟨70, _⟩ => ⟨S1280000, .i32⟩
  | .hbm, ⟨71, _⟩ => ⟨S1280000, .i1⟩
  | .hbm, ⟨72, _⟩ => ⟨S_, .i32⟩
  | .hbm, ⟨73, _⟩ => ⟨S1280000, .i32⟩
  | .hbm, ⟨74, _⟩ => ⟨S1280000, .i32⟩
  | .hbm, ⟨75, _⟩ => ⟨S1280000, .i32⟩
  | .hbm, ⟨76, _⟩ => ⟨S1280000x1, .i32⟩
  | .hbm, ⟨77, _⟩ => ⟨S1280000x64, .f32⟩
  | .hbm, ⟨78, _⟩ => ⟨S1280000, .f32⟩
  | .hbm, ⟨79, _⟩ => ⟨S_, .f32⟩
  | .hbm, ⟨80, _⟩ => ⟨S1280000, .f32⟩
  | .hbm, ⟨81, _⟩ => ⟨S_, .f32⟩
  | .hbm, ⟨82, _⟩ => ⟨S80000, .f32⟩
  | .hbm, ⟨83, _⟩ => ⟨S1280000x1, .i32⟩
  | .hbm, ⟨84, _⟩ => ⟨S80000, .f32⟩
  | .hbm, ⟨85, _⟩ => ⟨S_, .f32⟩
  | .hbm, ⟨86, _⟩ => ⟨S80000, .f32⟩
  | .hbm, ⟨87, _⟩ => ⟨S1280000x1, .i32⟩
  | .hbm, ⟨88, _⟩ => ⟨S80000, .f32⟩
  | .hbm, ⟨89, _⟩ => ⟨S_, .f32⟩
  | .hbm, ⟨90, _⟩ => ⟨S80000, .f32⟩
  | .hbm, ⟨91, _⟩ => ⟨S80000, .f32⟩
  | .hbm, ⟨92, _⟩ => ⟨S80000, .f32⟩
  | .hbm, ⟨93, _⟩ => ⟨S80000, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S8000x64, .f32⟩
  | .local _ .vmem, ⟨4, _⟩ => ⟨S8000x64, .f32⟩
  | .local _ .vmem, ⟨5, _⟩ => ⟨S5120x64, .f32⟩
  | .local _ .vmem, ⟨6, _⟩ => ⟨S5120x64, .f32⟩
  | .local _ .vmem, ⟨7, _⟩ => ⟨S5120x64, .f32⟩
  | .local _ .vmem, ⟨8, _⟩ => ⟨S5120x64, .f32⟩
  | .local _ .vmem, ⟨9, _⟩ => ⟨S5120, .f32⟩
  | .local _ .vmem, ⟨10, _⟩ => ⟨S5120, .f32⟩
  | _, _ => ⟨S80000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_cst : Ref sig .tc := ⟨.hbm, 57, rfl⟩
abbrev main_call0_v0 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S5120x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5120x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5120 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1360000x1_S1360000x64_0_1 : S1360000x1.BroadcastsInDim S1360000x64 (![0, 1] : Fin 2 → Fin S1360000x64.rank)
  bcast_S_S80000x64 : S_.BroadcastsInDim S80000x64 (![] : Fin 0 → Fin S80000x64.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  inb_S5120x64_S5120x64_0_0 : ∀ a, (![0, 0] : Fin 2 → Nat) a + S5120x64.size a ≤ S5120x64.size a
  h_S5120x64 : 0 < S5120x64.numel
  shapeCasts_S5120x64_S5120x64 : S5120x64.ShapeCasts S5120x64
  reduces_S5120x64_S5120 : S5120x64.Reduces [1] S5120
  inb_S5120_S5120_0 : ∀ a, (![0] : Fin 1 → Nat) a + S5120.size a ≤ S5120.size a
  h_S5120 : 0 < S5120.numel
  scatter_S80000_S1360000x1_S1360000_n_0_0_1_wf : ScatterDims.WF S80000 S1360000x1 S1360000 [] [0] [0] 1
  gather_S80000_S1360000x1_S1360000_n_0_n_n_0_1_1_wf : GatherDims.WF S80000 S1360000x1 S1360000 [] [0] [] [0] [] 1 ![1]
  dot_S8000x64_S64x64_S8000x64_1_0_0_1_n_n_wf : DotDims.WF S8000x64 S64x64 S8000x64 [1] [0] [0] [1] [] []
  gather_S80000x64_S1360000x1_S1360000x64_1_0_n_n_0_1_164_wf : GatherDims.WF S80000x64 S1360000x1 S1360000x64 [1] [0] [] [0] [] 1 ![1, 64]
  scatter_S80000x64_S1360000x1_S1360000x64_1_0_0_1_wf : ScatterDims.WF S80000x64 S1360000x1 S1360000x64 [1] [0] [0] 1
  gather_S80000x64_S1280000x1_S1280000x64_1_0_n_n_0_1_164_wf : GatherDims.WF S80000x64 S1280000x1 S1280000x64 [1] [0] [] [0] [] 1 ![1, 64]
  scatter_S80000_S1280000x1_S1280000_n_0_0_1_wf : ScatterDims.WF S80000 S1280000x1 S1280000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S80000x64.size a
  hwx0_0 : ∀ i : grid0.Coords, EltTy.bits .f32 = 32 ∨ (Rect.block (s := S80000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S80000x64.size a
  hwx0_2 : ∀ i : grid0.Coords, EltTy.bits .f32 = 32 ∨ (Rect.block (s := S80000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5120x64.size a ≤ S1280000x64.size a
  hwx1_0 : ∀ i : grid1.Coords, EltTy.bits .f32 = 32 ∨ (Rect.block (s := S1280000x64) S5120x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x64.size a ≤ S1280000x64.size a
  hwx1_1 : ∀ i : grid1.Coords, EltTy.bits .f32 = 32 ∨ (Rect.block (s := S1280000x64) S5120x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5120.size a ≤ S1280000.size a
  hwx1_2 : ∀ i : grid1.Coords, EltTy.bits .f32 = 32 ∨ (Rect.block (s := S1280000) S5120.size (cc1_transform_2 i) (hinb1_2 i)).WholeWords (EltTy.packing .f32)

variable [Facts₀]

def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000_S1360000x1_S1360000_n_0_n_n_0_1_1 : GatherDims S80000 S1360000x1 S1360000 where
  offsetDims := []
  collapsedSliceDims := [0]
  operandBatchingDims := []
  startIndicesBatchingDims := []
  startIndexMap := [0]
  indexVectorDim := 1
  sliceSizes := ![1]
  wf := gather_S80000_S1360000x1_S1360000_n_0_n_n_0_1_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S80000x64_S1360000x1_S1360000x64_1_0_n_n_0_1_164 : GatherDims S80000x64 S1360000x1 S1360000x64 where
  offsetDims := [1]
  collapsedSliceDims := [0]
  operandBatchingDims := []
  startIndicesBatchingDims := []
  startIndexMap := [0]
  indexVectorDim := 1
  sliceSizes := ![1, 64]
  wf := gather_S80000x64_S1360000x1_S1360000x64_1_0_n_n_0_1_164_wf
def scatter_S80000x64_S1360000x1_S1360000x64_1_0_0_1 : ScatterDims S80000x64 S1360000x1 S1360000x64 where
  updateWindowDims := [1]
  insertedWindowDims := [0]
  scatterDimsToOperandDims := [0]
  indexVectorDim := 1
  wf := scatter_S80000x64_S1360000x1_S1360000x64_1_0_0_1_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5120x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S5120x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S5120.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S80000x64 : Shape := ⟨2, ![80000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S80000 : Shape := ⟨1, ![80000]⟩
abbrev S1360000 : Shape := ⟨1, ![1360000]⟩
abbrev S_ : Shape := ⟨0, ![]⟩
abbrev S1360000x1 : Shape := ⟨2, ![1360000, 1]⟩
abbrev S1360000x64 : Shape := ⟨2, ![1360000, 64]⟩
abbrev S1x64 : Shape := ⟨2, ![1, 64]⟩
abbrev S1280000x1 : Shape := ⟨2, ![1280000, 1]⟩
abbrev S1280000x64 : Shape := ⟨2, ![1280000, 64]⟩

abbrev nBuf : Space → Nat
  | .hbm => 100
  | .vmem => 0
  | .smem => 0
  | _ => 0

abbrev bufTy : (tb : Table) → Fin (tcTables nBuf tb) → BufTy
  | .hbm, ⟨0, _⟩ => ⟨S80000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S1x1280000, .i32⟩
  | .hbm, ⟨5, _⟩ => ⟨S1280000, .i32⟩
  | .hbm, ⟨6, _⟩ => ⟨S1x1280000, .i32⟩
  | .hbm, ⟨7, _⟩ => ⟨S1280000, .i32⟩
  | .hbm, ⟨8, _⟩ => ⟨S80000, .i32⟩
  | .hbm, ⟨9, _⟩ => ⟨S1360000, .i32⟩
  | .hbm, ⟨10, _⟩ => ⟨S1360000, .i32⟩
  | .hbm, ⟨11, _⟩ => ⟨S_, .f32⟩
  | .hbm, ⟨12, _⟩ => ⟨S1360000, .f32⟩
  | .hbm, ⟨13, _⟩ => ⟨S_, .f32⟩
  | .hbm, ⟨14, _⟩ => ⟨S80000, .f32⟩
  | .hbm, ⟨15, _⟩ => ⟨S1360000x1, .i32⟩
  | .hbm, ⟨16, _⟩ => ⟨S80000, .f32⟩
  | .hbm, ⟨17, _⟩ => ⟨S80000, .f32⟩
  | .hbm, ⟨18, _⟩ => ⟨S_, .i32⟩
  | .hbm, ⟨19, _⟩ => ⟨S1360000, .i32⟩
  | .hbm, ⟨20, _⟩ => ⟨S1360000, .i1⟩
  | .hbm, ⟨21, _⟩ => ⟨S_, .i32⟩
  | .hbm, ⟨22, _⟩ => ⟨S1360000, .i32⟩
  | .hbm, ⟨23, _⟩ => ⟨S1360000, .i32⟩
  | .hbm, ⟨24, _⟩ => ⟨S1360000, .i32⟩
  | .hbm, ⟨25, _⟩ => ⟨S1360000x1, .i32⟩
  | .hbm, ⟨26, _⟩ => ⟨S1360000, .f32⟩
  | .hbm, ⟨27, _⟩ => ⟨S_, .i32⟩
  | .hbm, ⟨28, _⟩ => ⟨S1360000, .i32⟩
  | .hbm, ⟨29, _⟩ => ⟨S1360000, .i1⟩
  | .hbm, ⟨30, _⟩ => ⟨S_, .i32⟩
  | .hbm, ⟨31, _⟩ => ⟨S1360000, .i32⟩
  | .hbm, ⟨32, _⟩ => ⟨S1360000, .i32⟩
  | .hbm, ⟨33, _⟩ => ⟨S1360000, .i32⟩
  | .hbm, ⟨34, _⟩ => ⟨S1360000x1, .i32⟩
  | .hbm, ⟨35, _⟩ => ⟨S1360000, .f32⟩
  | .hbm, ⟨36, _⟩ => ⟨S1360000, .f32⟩
  | .hbm, ⟨37, _⟩ => ⟨S80000x64, .f32⟩
  | .hbm, ⟨38, _⟩ => ⟨S_, .i32⟩
  | .hbm, ⟨39, _⟩ => ⟨S1360000, .i32⟩
  | .hbm, ⟨40, _⟩ => ⟨S1360000, .i1⟩
  | .hbm, ⟨41, _⟩ => ⟨S_, .i32⟩
  | .hbm, ⟨42, _⟩ => ⟨S1360000, .i32⟩
  | .hbm, ⟨43, _⟩ => ⟨S1360000, .i32⟩
  | .hbm, ⟨44, _⟩ => ⟨S1360000, .i32⟩
  | .hbm, ⟨45, _⟩ => ⟨S1360000x1, .i32⟩
  | .hbm, ⟨46, _⟩ => ⟨S1360000x64, .f32⟩
  | .hbm, ⟨47, _⟩ => ⟨S1360000x1, .f32⟩
  | .hbm, ⟨48, _⟩ => ⟨S1360000x64, .f32⟩
  | .hbm, ⟨49, _⟩ => ⟨S1360000x64, .f32⟩
  | .hbm, ⟨50, _⟩ => ⟨S_, .f32⟩
  | .hbm, ⟨51, _⟩ => ⟨S80000x64, .f32⟩
  | .hbm, ⟨52, _⟩ => ⟨S1360000x1, .i32⟩
  | .hbm, ⟨53, _⟩ => ⟨S80000x64, .f32⟩
  | .hbm, ⟨54, _⟩ => ⟨S1x64, .f32⟩
  | .hbm, ⟨55, _⟩ => ⟨S80000x64, .f32⟩
  | .hbm, ⟨56, _⟩ => ⟨S80000x64, .f32⟩
  | .hbm, ⟨57, _⟩ => ⟨S_, .f32⟩
  | .hbm, ⟨58, _⟩ => ⟨S80000x64, .f32⟩
  | .hbm, ⟨59, _⟩ => ⟨S80000x64, .f32⟩
  | .hbm, ⟨60, _⟩ => ⟨S_, .i32⟩
  | .hbm, ⟨61, _⟩ => ⟨S1280000, .i32⟩
  | .hbm, ⟨62, _⟩ => ⟨S1280000, .i1⟩
  | .hbm, ⟨63, _⟩ => ⟨S_, .i32⟩
  | .hbm, ⟨64, _⟩ => ⟨S1280000, .i32⟩
  | .hbm, ⟨65, _⟩ => ⟨S1280000, .i32⟩
  | .hbm, ⟨66, _⟩ => ⟨S1280000, .i32⟩
  | .hbm, ⟨67, _⟩ => ⟨S1280000x1, .i32⟩
  | .hbm, ⟨68, _⟩ => ⟨S1280000x64, .f32⟩
  | .hbm, ⟨69, _⟩ => ⟨S_, .i32⟩
  | .hbm, ⟨70, _⟩ => ⟨S1280000, .i32⟩
  | .hbm, ⟨71, _⟩ => ⟨S1280000, .i1⟩
  | .hbm, ⟨72, _⟩ => ⟨S_, .i32⟩
  | .hbm, ⟨73, _⟩ => ⟨S1280000, .i32⟩
  | .hbm, ⟨74, _⟩ => ⟨S1280000, .i32⟩
  | .hbm, ⟨75, _⟩ => ⟨S1280000, .i32⟩
  | .hbm, ⟨76, _⟩ => ⟨S1280000x1, .i32⟩
  | .hbm, ⟨77, _⟩ => ⟨S1280000x64, .f32⟩
  | .hbm, ⟨78, _⟩ => ⟨S1280000x64, .f32⟩
  | .hbm, ⟨79, _⟩ => ⟨S1280000x64, .f32⟩
  | .hbm, ⟨80, _⟩ => ⟨S_, .f32⟩
  | .hbm, ⟨81, _⟩ => ⟨S1280000x64, .f32⟩
  | .hbm, ⟨82, _⟩ => ⟨S1280000x64, .f32⟩
  | .hbm, ⟨83, _⟩ => ⟨S_, .f32⟩
  | .hbm, ⟨84, _⟩ => ⟨S1280000, .f32⟩
  | .hbm, ⟨85, _⟩ => ⟨S_, .f32⟩
  | .hbm, ⟨86, _⟩ => ⟨S1280000, .f32⟩
  | .hbm, ⟨87, _⟩ => ⟨S_, .f32⟩
  | .hbm, ⟨88, _⟩ => ⟨S80000, .f32⟩
  | .hbm, ⟨89, _⟩ => ⟨S1280000x1, .i32⟩
  | .hbm, ⟨90, _⟩ => ⟨S80000, .f32⟩
  | .hbm, ⟨91, _⟩ => ⟨S_, .f32⟩
  | .hbm, ⟨92, _⟩ => ⟨S80000, .f32⟩
  | .hbm, ⟨93, _⟩ => ⟨S1280000x1, .i32⟩
  | .hbm, ⟨94, _⟩ => ⟨S80000, .f32⟩
  | .hbm, ⟨95, _⟩ => ⟨S_, .f32⟩
  | .hbm, ⟨96, _⟩ => ⟨S80000, .f32⟩
  | .hbm, ⟨97, _⟩ => ⟨S80000, .f32⟩
  | .hbm, ⟨98, _⟩ => ⟨S80000, .f32⟩
  | .hbm, ⟨99, _⟩ => ⟨S80000, .f32⟩
  | _, _ => ⟨S80000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_cst : Ref sig .tc := ⟨.hbm, 57, rfl⟩
abbrev main_call0_v0 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S80000_S1360000_d0 : Shape.Concatenates [S1280000, S80000] S1360000 0
  bcast_S_S1360000 : S_.BroadcastsInDim S1360000 (![] : Fin 0 → Fin S1360000.rank)
  bcast_S_S80000 : S_.BroadcastsInDim S80000 (![] : Fin 0 → Fin S80000.rank)
  bcast_S1360000_S1360000x1_0 : S1360000.BroadcastsInDim S1360000x1 (![0] : Fin 1 → Fin S1360000x1.rank)
  bcast_S1360000x1_S1360000x64_0_1 : S1360000x1.BroadcastsInDim S1360000x64 (![0, 1] : Fin 2 → Fin S1360000x64.rank)
  bcast_S_S80000x64 : S_.BroadcastsInDim S80000x64 (![] : Fin 0 → Fin S80000x64.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x64 : S_.BroadcastsInDim S1280000x64 (![] : Fin 0 → Fin S1280000x64.rank)
  reducesTo_S1280000x64_S1280000_d1 : S1280000x64.ReducesTo [1] S1280000
  h_S_ : 0 < S_.numel
  scatter_S80000_S1360000x1_S1360000_n_0_0_1_wf : ScatterDims.WF S80000 S1360000x1 S1360000 [] [0] [0] 1
  gather_S80000_S1360000x1_S1360000_n_0_n_n_0_1_1_wf : GatherDims.WF S80000 S1360000x1 S1360000 [] [0] [] [0] [] 1 ![1]
  dot_S80000x64_S64x64_S80000x64_1_0_0_1_n_n_wf : DotDims.WF S80000x64 S64x64 S80000x64 [1] [0] [0] [1] [] []
  gather_S80000x64_S1360000x1_S1360000x64_1_0_n_n_0_1_164_wf : GatherDims.WF S80000x64 S1360000x1 S1360000x64 [1] [0] [] [0] [] 1 ![1, 64]
  scatter_S80000x64_S1360000x1_S1360000x64_1_0_0_1_wf : ScatterDims.WF S80000x64 S1360000x1 S1360000x64 [1] [0] [0] 1
  gather_S80000x64_S1280000x1_S1280000x64_1_0_n_n_0_1_164_wf : GatherDims.WF S80000x64 S1280000x1 S1280000x64 [1] [0] [] [0] [] 1 ![1, 64]
  scatter_S80000_S1280000x1_S1280000_n_0_0_1_wf : ScatterDims.WF S80000 S1280000x1 S1280000 [] [0] [0] 1

variable [Facts₀]

def scatter_S80000_S1360000x1_S1360000_n_0_0_1 : ScatterDims S80000 S1360000x1 S1360000 where
  updateWindowDims := []
  insertedWindowDims := [0]
  scatterDimsToOperandDims := [0]
  indexVectorDim := 1
  wf := scatter_S80000_S1360000x1_S1360000_n_0_0_1_wf
def gather_S80000_S1360000x1_S1360000_n_0_n_n_0_1_1 : GatherDims S80000 S1360000x1 S1360000 where
  offsetDims := []
  collapsedSliceDims := [0]
  operandBatchingDims := []
  startIndicesBatchingDims := []
  startIndexMap := [0]
  indexVectorDim := 1
  sliceSizes := ![1]
  wf := gather_S80000_S1360000x1_S1360000_n_0_n_n_0_1_1_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def gather_S80000x64_S1360000x1_S1360000x64_1_0_n_n_0_1_164 : GatherDims S80000x64 S1360000x1 S1360000x64 where
  offsetDims := [1]
  collapsedSliceDims := [0]
  operandBatchingDims := []
  startIndicesBatchingDims := []
  startIndexMap := [0]
  indexVectorDim := 1
  sliceSizes := ![1, 64]
  wf := gather_S80000x64_S1360000x1_S1360000x64_1_0_n_n_0_1_164_wf
def scatter_S80000x64_S1360000x1_S1360000x64_1_0_0_1 : ScatterDims S80000x64 S1360000x1 S1360000x64 where
  updateWindowDims := [1]
  insertedWindowDims := [0]
  scatterDimsToOperandDims := [0]
  indexVectorDim := 1
  wf := scatter_S80000x64_S1360000x1_S1360000x64_1_0_0_1_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf

class Facts : Prop extends Facts₀ where

variable [Facts]
-- ==== Proof.Stages.lean ====
/-
  The reference, cut where the kernel program differs from it.

  Both programs build, from the edge list, the self-looped source and destination lists and the symmetric
  normalisation  norm(e) = deg(s e)^(-1/2) · deg(d e)^(-1/2); from a node table  h  (the product X·W) the
  node features  H = max(Σ_{e → n} h[s e] · norm(e) + b, 0);  per edge the rows  H[src e]  and  H[dst e];
  from those the edge score  Σ_k |H[src e] k − H[dst e] k|^2;  and from the scores the output
  tanh(Σ_{src e = n} score e / max(#{e : src e = n}, 1)).
  Only two of these steps are computed differently by the two programs: the product X·W and the edge score.
  Each other step is named here once, as a function of what it consumes, over the reference's own stages;
  the reference's result is then their composition, by unfolding alone.
-/
import proofs.«172915_j51539607552123_1_alg».proof.Proof.Gen.ReferenceIdeal.Read

noncomputable section

namespace Cert.Stages

open Cert.ReferenceIdeal Cert.ReferenceIdeal.Gen Cert.ReferenceIdeal.Read Idealize.ShloMosaic Idealize.ShloMosaic.TcCoe

variable {F : FTy → Type} [FloatOps F]

/-- The aggregate from a node table `h`, before the rectifier: the rows of `h` gathered at the self-looped sources,
    scaled by the normalisation, summed into their destinations, the bias added. -/
def preAct (h : (⟨S80000x64, .f32⟩ : BufTy).Contents (Elt F)) (x1 : (⟨S2x1280000, .i32⟩ : BufTy).Contents (Elt F))
    (x3 : (⟨S64, .f32⟩ : BufTy).Contents (Elt F)) : (⟨S80000x64, .f32⟩ : BufTy).Contents (Elt F) :=
  addf (Host.scatterAdd scatter_S80000x64_S1360000x1_S1360000x64_1_0_0_1 (val_main_v38 (F := F)) (val_main_v39 (F := F) x1)
      (mulf (Host.gather gather_S80000x64_S1360000x1_S1360000x64_1_0_n_n_0_1_164 h (val_main_v33 (F := F) x1)) (val_main_v36 (F := F) x1)))
    (val_main_v42 (F := F) x3)

/-- The rectifier: the larger of an entry and zero. -/
def rectify (a : (⟨S80000x64, .f32⟩ : BufTy).Contents (Elt F)) : (⟨S80000x64, .f32⟩ : BufTy).Contents (Elt F) :=
  maximumf a (val_main_call0_v0 (F := F))

/-- The node features from a node table `h`: the aggregate with its negative part cut off. -/
def nodeFeat (h : (⟨S80000x64, .f32⟩ : BufTy).Contents (Elt F)) (x1 : (⟨S2x1280000, .i32⟩ : BufTy).Contents (Elt F))
    (x3 : (⟨S64, .f32⟩ : BufTy).Contents (Elt F)) : (⟨S80000x64, .f32⟩ : BufTy).Contents (Elt F) :=
  rectify (preAct h x1 x3)

/-- The feature rows at the edges' sources. -/
def rowsSrc (H : (⟨S80000x64, .f32⟩ : BufTy).Contents (Elt F)) (x1 : (⟨S2x1280000, .i32⟩ : BufTy).Contents (Elt F)) :
    (⟨S1280000x64, .f32⟩ : BufTy).Contents (Elt F) :=
  Host.gather gather_S80000x64_S1280000x1_S1280000x64_1_0_n_n_0_1_164 H (val_main_v50 (F := F) x1)

/-- The feature rows at the edges' destinations. -/
def rowsDst (H : (⟨S80000x64, .f32⟩ : BufTy).Contents (Elt F)) (x1 : (⟨S2x1280000, .i32⟩ : BufTy).Contents (Elt F)) :
    (⟨S1280000x64, .f32⟩ : BufTy).Contents (Elt F) :=
  Host.gather gather_S80000x64_S1280000x1_S1280000x64_1_0_n_n_0_1_164 H (val_main_v57 (F := F) x1)

/-- The reference's edge score: the sum over the feature axis of |a − b| raised to the power two. -/
def edgeScore (A B : (⟨S1280000x64, .f32⟩ : BufTy).Contents (Elt F)) : (⟨S1280000, .f32⟩ : BufTy).Contents (Elt F) :=
  Host.reduceAdd (Host.powf (Host.absf (subf A B)) (val_main_v61 (F := F))) (val_main_cst_12 (F := F)) reducesTo_S1280000x64_S1280000_d1 h_S_

/-- The output from the edges' source list and the edge scores: the scores summed per source node, divided by the
    larger of the node's edge count and one, through the hyperbolic tangent. -/
def gateOut (src : (⟨S1280000, .i32⟩ : BufTy).Contents (Elt F)) (d : (⟨S1280000, .f32⟩ : BufTy).Contents (Elt F)) :
    (⟨S80000, .f32⟩ : BufTy).Contents (Elt F) :=
  Host.tanh (Host.divf
    (Host.scatterAdd scatter_S80000_S1280000x1_S1280000_n_0_0_1 (val_main_v68 (F := F)) (broadcastInDim S1280000x1 ![0] bcast_S1280000_S1280000x1_0 src) d)
    (maximumf (Host.scatterAdd scatter_S80000_S1280000x1_S1280000_n_0_0_1 (val_main_v65 (F := F)) (broadcastInDim S1280000x1 ![0] bcast_S1280000_S1280000x1_0 src) (val_main_v64 (F := F)))
      (val_main_v71 (F := F))))

/-- The reference's node features are `nodeFeat` of its own product. -/
theorem feat_eq (x0 : (⟨S80000x64, .f32⟩ : BufTy).Contents (Elt F)) (x1 : (⟨S2x1280000, .i32⟩ : BufTy).Contents (Elt F))
    (x2 : (⟨S64x64, .f32⟩ : BufTy).Contents (Elt F)) (x3 : (⟨S64, .f32⟩ : BufTy).Contents (Elt F)) :
    val_main_v44 (F := F) x0 x1 x2 x3 = nodeFeat (val_main_v27 (F := F) x0 x2) x1 x3 := by
  unfold val_main_v44 val_main_v43 val_main_v40 val_main_v37 val_main_v34 nodeFeat rectify preAct
  rfl

/-- The reference's result is the composition of the stages. -/
theorem reference_eq (x0 : (⟨S80000x64, .f32⟩ : BufTy).Contents (Elt F)) (x1 : (⟨S2x1280000, .i32⟩ : BufTy).Contents (Elt F))
    (x2 : (⟨S64x64, .f32⟩ : BufTy).Contents (Elt F)) (x3 : (⟨S64, .f32⟩ : BufTy).Contents (Elt F)) :
    val_main_v74 (F := F) x0 x1 x2 x3
      = gateOut (val_main_v1 (F := F) x1)
          (edgeScore (rowsSrc (nodeFeat (val_main_v27 (F := F) x0 x2) x1 x3) x1) (rowsDst (nodeFeat (val_main_v27 (F := F) x0 x2) x1 x3) x1)) := by
  rw [← feat_eq]
  unfold val_main_v74 val_main_v73 val_main_v72 val_main_v70 val_main_v67 val_main_v69 val_main_v66 val_main_v63 val_main_v62 val_main_v60
    val_main_v59 val_main_v58 val_main_v51 gateOut edgeScore rowsSrc rowsDst
  rfl

end Cert.Stages

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.MatmulRegion.lean ====
/-
  The first kernel region: the product X · W.

  The region walks the 80,000 rows of X in 10 blocks of 8,000. At a block it loads the 8,000 × 64 rows and the whole
  64 × 64 matrix W, narrows both to the shorter float format — which changes nothing on the extended reals — and
  multiplies them into a zero accumulator. Entry (r, q) of the result array is therefore  Σ_k X r k · W k q,  which is
  the reference's one whole product at that entry.
-/
import proofs.«172915_j51539607552123_1_alg».proof.Proof.Gen.KernelIdeal.Frame
import proofs.«172915_j51539607552123_1_alg».proof.Proof.Gen.ReferenceIdeal.Read
import proofs.«172915_j51539607552123_1_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.MatmulRegion

open Cert.KernelIdeal Cert.KernelIdeal.Gen
open Idealize.ShloMosaic Idealize.ShloMosaic.TcCoe Idealize.SL.Sem Idealize.ShloMosaic.ValueIdx
open Idealize.ShloMosaic.Pipeline (Dat)
open Cert.ReferenceIdeal.Read (val_main_v27 val_main_v27_apply lidx_main_v27 ridx_main_v27)

variable (V : (c : Dev nD) → (b : Ref sig .tc) → Buf (Elt Ideal) ((c : Thread nD τ).loc b))

theorem origin2 : (![0, 0] : Fin 2 → Nat) = fun _ => 0 := funext fun a => by fin_cases a <;> rfl

/-- An entry of the product of a block of 8,000 rows by the weight matrix: the sum over the 64 contracted features. -/
theorem product_block (x0 : Vec Ideal S8000x64 .f32) (x1 : Vec Ideal S64x64 .f32) (p : Fin 8000) (q : Fin 64) :
    k0_pay1 (F := Ideal) x0 x1 (ix2 p q) = ∑ k : Fin 64, x0 (ix2 p k) * x1 (ix2 k q) := by
  unfold k0_pay1
  exact MatmulPlain.matmul_zero_apply (M := 8000) (K := 64) (N := 64) none (truncf .bf16 x0 bitsLt_bf16_f32) (truncf .bf16 x1 bitsLt_bf16_f32) p q

/-- A block's entry is the whole product's entry, once the block's rows are rows of X and the matrix is W. -/
theorem entry_eq (X : (⟨Cert.ReferenceIdeal.S80000x64, .f32⟩ : BufTy).Contents (Elt Ideal)) (W : (⟨Cert.ReferenceIdeal.S64x64, .f32⟩ : BufTy).Contents (Elt Ideal))
    (x0 : Vec Ideal S8000x64 .f32) (x1 : Vec Ideal S64x64 .f32) (j : S8000x64.Idx) (i : Cert.ReferenceIdeal.S80000x64.Idx)
    (h0 : ∀ k : Fin 64, x0 (ix2 (j 0) k) = X (lidx_main_v27 i k))
    (h1 : ∀ k : Fin 64, x1 (ix2 k (j 1)) = W (ridx_main_v27 i k)) :
    k0_pay1 (F := Ideal) x0 x1 j = val_main_v27 (F := Ideal) X W i := by
  rw [val_main_v27_apply, eq_ix2 j]
  refine (product_block x0 x1 (j 0) (j 1)).trans (Finset.sum_congr rfl fun k _ => ?_)
  rw [h0 k, h1 k]

/-- The printed index maps over the grid: the row blocks move with the point, the matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal) (val_main_v27 (F := Ideal) (V c main_arg0) (V c main_arg2)) := by
  show (cfg0.win 2).cut (grid0.coords t) ((dat0 V c).after 2 t) = _
  rw [after0_2]
  unfold out0_2
  rw [View.canon_unit_zero origin2]
  simp only [View.ld_unit_zero (S := S8000x64) origin2, View.ld_unit_zero (S := S64x64) origin2]
  obtain ⟨e0, e1, e2, e3, e4, e5⟩ := idx_facts t
  funext j
  refine entry_eq (V c main_arg0) (V c main_arg2) (iblk0 V c 0 t) (iblk0 V c 1 t) j (((cfg0.win 2).blk t).view.emb j) (fun k => ?_) (fun k => ?_)
  · show V c main_arg0 (((cfg0.win 0).blk t).view.emb (ix2 (j 0) k)) = V c main_arg0 _
    refine congrArg _ (funext fun a => Fin.ext ?_)
    match a with
    | ⟨0, _⟩ => show win0_0.index t (0 : Fin 2) * 8000 + 1 * (j 0).val = win0_2.index t (0 : Fin 2) * 8000 + 1 * (j 0).val; rw [e0, e4]
    | ⟨1, _⟩ => show win0_0.index t (1 : Fin 2) * 64 + 1 * k.val = k.val; rw [e1]; omega
  · show V c main_arg2 (((cfg0.win 1).blk t).view.emb (ix2 k (j 1))) = V c main_arg2 _
    refine congrArg _ (funext fun a => Fin.ext ?_)
    match a with
    | ⟨0, _⟩ => show win0_1.index t (0 : Fin 2) * 64 + 1 * k.val = k.val; rw [e2]; omega
    | ⟨1, _⟩ => show win0_1.index t (1 : Fin 2) * 64 + 1 * (j 1).val = win0_2.index t (1 : Fin 2) * 64 + 1 * (j 1).val; rw [e3, e5]

/-- An index of the result array lies in point `t`'s block iff each coordinate lies in the block's range on its axis. -/
theorem mem_blk (t : Fin cfg0.N) (i : S80000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v27).slice (win0_2.rect t)).set ↔ _
  rw [View.set_slice_whole, Rect.mem_set_unit]
  exact Iff.rfl

/-- Row r of the result lies in the block of point r / 8000. -/
theorem cover (i : S80000x64.Idx) : ∃ t : Fin cfg0.N, (cfg0.win 2).flush t = true ∧ i ∈ ((cfg0.win 2).blk t).view.set := by
  have hi0 : (i 0).val < 80000 := (i 0).isLt
  have hi1 : (i 1).val < 64 := (i 1).isLt
  have hN : cfg0.N = 10 := N_0
  have hlt : (i 0).val / 8000 < cfg0.N := by rw [hN]; omega
  obtain ⟨-, -, -, -, e4, e5⟩ := idx_facts ⟨(i 0).val / 8000, hlt⟩
  have e4' : win0_2.index ⟨(i 0).val / 8000, hlt⟩ (0 : Fin 2) = (i 0).val / 8000 := e4
  refine ⟨⟨(i 0).val / 8000, hlt⟩, flush0_2 _, ?_⟩
  rw [mem_blk]
  intro a
  match a with
  | ⟨0, _⟩ =>
    show win0_2.index ⟨(i 0).val / 8000, hlt⟩ (0 : Fin 2) * 8000 ≤ (i 0).val ∧ (i 0).val < win0_2.index ⟨(i 0).val / 8000, hlt⟩ (0 : Fin 2) * 8000 + 8000
    rw [e4']; omega
  | ⟨1, _⟩ =>
    show win0_2.index ⟨(i 0).val / 8000, hlt⟩ (1 : Fin 2) * 64 ≤ (i 1).val ∧ (i 1).val < win0_2.index ⟨(i 0).val / 8000, hlt⟩ (1 : Fin 2) * 64 + 64
    rw [e5]; omega

/-- After the region its result array holds the whole product of the arrays the region found. -/
theorem product_value (c : Dev nD) :
    (dat0 V c).arrAt 2 cfg0.N = val_main_v27 (F := Ideal) (V c main_arg0) (V c main_arg2) :=
  (dat0 V c).arrAt_eq_of_cover 2 _ (fun t _ => flushed_eq V c t) cover

end Cert.KernelIdeal.MatmulRegion

end
-- ==== Proof.EdgeLaw.lean ====
/-
  Two facts about the extended reals behind the edge score.
  The word 0x40000000 is the number two; and for every extended real d, the larger of d and −d raised to the power
  two is d · d — at a real because |r|^2 = r^2, at either infinity because both sides are +∞.
-/
import Idealize.ShloMosaic.PureOps.Ideal
import Mathlib.Analysis.SpecialFunctions.Pow.Real

noncomputable section

namespace Cert.EdgeLaw

open Idealize.ShloMosaic

/-- The word 0x40000000 denotes the real number two. -/
theorem ofBits_two : Ideal.ofBits .f32 0x40000000#32 = ((2 : ℝ) : EReal) := by
  simp [Ideal.ofBits, Ideal.ieee, -EReal.coe_mul]; norm_num

/-- The magnitude of an extended real, squared through the power function, is its product with itself. -/
theorem abs_pow_two (d : EReal) : Ideal.pow (max d (-d)) ((2 : ℝ) : EReal) = d * d := by
  induction d using EReal.rec with
  | bot =>
    have h : max (⊥ : EReal) (-⊥) = ⊤ := by simp
    rw [h, Ideal.pow_top]
    simp
  | top =>
    have h : max (⊤ : EReal) (-⊤) = ⊤ := by simp
    rw [h, Ideal.pow_top]
    simp
  | coe r =>
    have h : max (r : EReal) (-(r : EReal)) = ((|r| : ℝ) : EReal) := by
      rw [← EReal.coe_neg, ← EReal.coe_strictMono.monotone.map_max, abs_eq_max_neg]
    rw [h, Ideal.pow_coe_coe, ← EReal.coe_mul]
    congr 1
    show |r| ^ (2 : ℝ) = r * r
    rw [Real.rpow_two, sq_abs, sq]

end Cert.EdgeLaw

end
-- ==== Proof.EdgeRegion.lean ====
/-
  The second kernel region: the edge scores.

  The region walks the 1,280,000 edges in 250 blocks of 5,120. At a block it loads the 5,120 × 64 feature rows of
  the edges' sources and of their destinations, subtracts, squares the difference by multiplying it with itself and
  sums over the 64 features. Entry e of the result array is therefore  Σ_k (a e k − b e k) · (a e k − b e k),  which is
  the reference's  Σ_k |a e k − b e k|^2  on the extended reals, by the law d ↦ |d|^2 = d · d.
-/
import proofs.«172915_j51539607552123_1_alg».proof.Proof.Gen.KernelIdeal.Frame
import proofs.«172915_j51539607552123_1_alg».proof.Proof.Stages
import proofs.«172915_j51539607552123_1_alg».proof.Proof.EdgeLaw
import Idealize.ShloMosaic.Lib.Pipeline.Value
import Idealize.ShloMosaic.Lib.ValueIdx
import Idealize.ShloMosaic.PureOps.Ideal.Laws

set_option maxRecDepth 16384

noncomputable section

namespace Cert.KernelIdeal.EdgeRegion

open Cert.KernelIdeal Cert.KernelIdeal.Gen
open Idealize.ShloMosaic Idealize.ShloMosaic.TcCoe Idealize.SL.Sem Idealize.ShloMosaic.ValueIdx
open Idealize.ShloMosaic.Pipeline (Dat)

/-- Row `e`, feature `k` of an edges × features array. -/
abbrev edgeFeat (i : S1280000.Idx) (k : Fin 64) : S1280000x64.Idx := fun a => match a with
  | ⟨0, _⟩ => ⟨(i 0).val, (i 0).isLt⟩
  | ⟨1, _⟩ => ⟨k.val, k.isLt⟩

/-- Row `j`, feature `k` of a block of 5,120 edges. -/
abbrev blockFeat (j : S5120.Idx) (k : Fin 64) : S5120x64.Idx := fun a => match a with
  | ⟨0, _⟩ => ⟨(j 0).val, (j 0).isLt⟩
  | ⟨1, _⟩ => ⟨k.val, k.isLt⟩

/-- The reference's edge score at an edge: the sum over the features of the squared difference. -/
theorem edgeScore_apply (A B : (⟨S1280000x64, .f32⟩ : BufTy).Contents (Elt Ideal)) (i : S1280000.Idx) :
    Cert.Stages.edgeScore (F := Ideal) A B i
      = ∑ k : Fin 64, (A (edgeFeat i k) - B (edgeFeat i k)) * (A (edgeFeat i k) - B (edgeFeat i k)) := by
  unfold Cert.Stages.edgeScore
  simp only [Host.reduceAdd, Ideal.hostReduceAdd_def]
  rw [Ideal.hostReduceAdd_single Cert.ReferenceIdeal.Gen.reducesTo_S1280000x64_S1280000_d1 (by decide)]
  rw [Cert.ReferenceIdeal.Read.val_main_cst_12_apply, Ideal.ofBits_def, Ideal.ofBits_zero_f32, zero_add]
  refine Finset.sum_congr rfl fun k _ => ?_
  have hk : ∀ h : Cert.ReferenceIdeal.S1280000x64.Reduces [1] Cert.ReferenceIdeal.S1280000, h.lift i k = edgeFeat i k := fun h =>
    funext fun a => Fin.ext (by match a with | ⟨0, _⟩ => rfl | ⟨1, _⟩ => rfl)
  rw [hk]
  show Ideal.pow (max (A (edgeFeat i k) - B (edgeFeat i k)) (-(A (edgeFeat i k) - B (edgeFeat i k))))
      (Cert.ReferenceIdeal.Read.val_main_v61 (F := Ideal) (edgeFeat i k)) = _
  rw [Cert.ReferenceIdeal.Read.val_main_v61_apply, Cert.ReferenceIdeal.Read.val_main_cst_11_apply, Ideal.ofBits_def,
    Cert.EdgeLaw.ofBits_two, Cert.EdgeLaw.abs_pow_two]

variable (V : (c : Dev nD) → (b : Ref sig .tc) → Buf (Elt Ideal) ((c : Thread nD τ).loc b))

theorem origin1 : (![0] : Fin 1 → Nat) = fun _ => 0 := funext fun a => by fin_cases a; rfl
theorem origin2 : (![0, 0] : Fin 2 → Nat) = fun _ => 0 := funext fun a => by fin_cases a <;> rfl

/-- The kernel's score of a block's edge: the sum over the features of the difference times itself. -/
theorem score_block (x0 x1 : Vec Ideal S5120x64 .f32) (j : S5120.Idx) :
    k1_pay1 (F := Ideal) x0 x1 j
      = ∑ k : Fin 64, (x0 (blockFeat j k) - x1 (blockFeat j k)) * (x0 (blockFeat j k) - x1 (blockFeat j k)) := by
  unfold k1_pay1
  refine (Ideal.multiReduction_add_single _ _ reduces_S5120x64_S5120 _ _ j).trans (Finset.sum_congr rfl fun k _ => ?_)
  have hk : reduces_S5120x64_S5120.lift j k = blockFeat j k :=
    funext fun a => Fin.ext (by match a with | ⟨0, _⟩ => rfl | ⟨1, _⟩ => rfl)
  rw [hk, shapeCast_self, shapeCast_self]
  rfl

/-- A block's score in terms of the whole arrays, once the block's rows are rows of the arrays. -/
theorem entry_sum (A B : (⟨S1280000x64, .f32⟩ : BufTy).Contents (Elt Ideal)) (x0 x1 : Vec Ideal S5120x64 .f32)
    (j : S5120.Idx) (i : S1280000.Idx)
    (h0 : ∀ k : Fin 64, x0 (blockFeat j k) = A (edgeFeat i k))
    (h1 : ∀ k : Fin 64, x1 (blockFeat j k) = B (edgeFeat i k)) :
    k1_pay1 (F := Ideal) x0 x1 j
      = ∑ k : Fin 64, (A (edgeFeat i k) - B (edgeFeat i k)) * (A (edgeFeat i k) - B (edgeFeat i k)) := by
  refine (score_block x0 x1 j).trans (Finset.sum_congr rfl fun k _ => ?_)
  rw [h0 k, h1 k]

/-- The printed index maps over the grid: all three windows move with the point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = t.val :=
  (by decide +kernel : ∀ t : Fin grid1.N, _)

/-- The feature rows at the edges' sources, as the region finds them. -/
abbrev srcRows (c : Dev nD) : (⟨S1280000x64, .f32⟩ : BufTy).Contents (Elt Ideal) := V c main_v51
/-- The feature rows at the edges' destinations, as the region finds them. -/
abbrev dstRows (c : Dev nD) : (⟨S1280000x64, .f32⟩ : BufTy).Contents (Elt Ideal) := V c main_v58

/-- What point `t` writes back is block `t` of any array that holds, at every edge, the sum over the features of
    the squared difference of the two arrays the region finds. -/
theorem flushed_of (c : Dev nD) (t : Fin cfg1.N) (G : (⟨S1280000, .f32⟩ : BufTy).Contents (Elt Ideal))
    (hG : ∀ i : S1280000.Idx, G i = ∑ k : Fin 64, (srcRows V c (edgeFeat i k) - dstRows V c (edgeFeat i k)) * (srcRows V c (edgeFeat i k) - dstRows V c (edgeFeat i k))) :
    (dat1 V c).flushed 2 t = ((cfg1.win 2).blk t).view.read (Elt Ideal) G := by
  show (cfg1.win 2).cut (grid1.coords t) ((dat1 V c).after 2 t) = _
  rw [after1_2]
  unfold out1_2
  rw [View.canon_unit_zero origin1]
  simp only [View.ld_unit_zero (S := S5120x64) origin2]
  obtain ⟨e0, e1, e2, e3, e4⟩ := idx_facts t
  funext j
  refine (entry_sum (srcRows V c) (dstRows V c) (iblk1 V c 0 t) (iblk1 V c 1 t) j (((cfg1.win 2).blk t).view.emb j) (fun k => ?_) (fun k => ?_)).trans (hG _).symm
  · show V c main_v51 (((cfg1.win 0).blk t).view.emb (blockFeat j k)) = V c main_v51 _
    refine congrArg _ (funext fun a => Fin.ext ?_)
    match a with
    | ⟨0, _⟩ => show win1_0.index t (0 : Fin 2) * 5120 + 1 * (j 0).val = win1_2.index t (0 : Fin 1) * 5120 + 1 * (j 0).val; rw [e0, e4]
    | ⟨1, _⟩ => show win1_0.index t (1 : Fin 2) * 64 + 1 * k.val = k.val; rw [e1]; omega
  · show V c main_v58 (((cfg1.win 1).blk t).view.emb (blockFeat j k)) = V c main_v58 _
    refine congrArg _ (funext fun a => Fin.ext ?_)
    match a with
    | ⟨0, _⟩ => show win1_1.index t (0 : Fin 2) * 5120 + 1 * (j 0).val = win1_2.index t (0 : Fin 1) * 5120 + 1 * (j 0).val; rw [e2, e4]
    | ⟨1, _⟩ => show win1_1.index t (1 : Fin 2) * 64 + 1 * k.val = k.val; rw [e3]; omega

/-- An index of the result array lies in point `t`'s block iff its coordinate lies in the block's range. -/
theorem mem_blk (t : Fin cfg1.N) (i : S1280000.Idx) :
    i ∈ ((cfg1.win 2).blk t).view.set ↔ ∀ a : Fin 1, win1_2.index t a * S5120.size a ≤ (i a).val ∧ (i a).val < win1_2.index t a * S5120.size a + S5120.size a := by
  show i ∈ ((View.whole main_v59).slice (win1_2.rect t)).set ↔ _
  rw [View.set_slice_whole, Rect.mem_set_unit]
  exact Iff.rfl

/-- Edge e lies in the block of point e / 5120. -/
theorem cover (i : S1280000.Idx) : ∃ t : Fin cfg1.N, (cfg1.win 2).flush t = true ∧ i ∈ ((cfg1.win 2).blk t).view.set := by
  have hi0 : (i 0).val < 1280000 := (i 0).isLt
  have hN : cfg1.N = 250 := N_1
  have hlt : (i 0).val / 5120 < cfg1.N := by rw [hN]; omega
  obtain ⟨-, -, -, -, e4⟩ := idx_facts ⟨(i 0).val / 5120, hlt⟩
  have e4' : win1_2.index ⟨(i 0).val / 5120, hlt⟩ (0 : Fin 1) = (i 0).val / 5120 := e4
  refine ⟨⟨(i 0).val / 5120, hlt⟩, flush1_2 _, ?_⟩
  rw [mem_blk]
  intro a
  match a with
  | ⟨0, _⟩ =>
    show win1_2.index ⟨(i 0).val / 5120, hlt⟩ (0 : Fin 1) * 5120 ≤ (i 0).val ∧ (i 0).val < win1_2.index ⟨(i 0).val / 5120, hlt⟩ (0 : Fin 1) * 5120 + 5120
    rw [e4']; omega

/-- After the region its result array holds the edge scores of the arrays the region found. -/
theorem score_value (c : Dev nD) :
    (dat1 V c).arrAt 2 cfg1.N = Cert.Stages.edgeScore (F := Ideal) (V c main_v51) (V c main_v58) :=
  (dat1 V c).arrAt_eq_of_cover 2 _ (fun t _ => flushed_of V c t _ (edgeScore_apply _ _)) cover

end Cert.KernelIdeal.EdgeRegion

end
-- ==== Proof.Stretches.lean ====
/-
  The kernel program's value, read through its host stretches and its two regions.

  The buffer contents at the boundaries of the program's seven segments are a fold from the launch memory. Read at
  the buffers that matter, the fold says: the first stretch leaves the edge lists, their self-looped forms and the
  normalisation, all functions of the edge array alone; the first region leaves the product X · W; the stretches
  between the regions leave the feature rows at the edges' sources and destinations; the second region leaves the
  edge scores; the last stretch leaves the output. Composed, this is the reference's result stage by stage.
-/
import proofs.«172915_j51539607552123_1_alg».proof.Proof.Gen.KernelIdeal.Frame
import proofs.«172915_j51539607552123_1_alg».proof.Proof.Stages
import proofs.«172915_j51539607552123_1_alg».proof.Proof.MatmulRegion
import proofs.«172915_j51539607552123_1_alg».proof.Proof.EdgeRegion
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo
open Cert.ReferenceIdeal.Read Cert.Stages

variable (m : (ℓ : Loc nD τ sig) → Buf (Elt Ideal) ℓ) (ρ : Dev nD → PrngReg)

/-! ## After the first stretch: functions of the edge array alone -/

/-- The edges' sources. -/
theorem src_list (c : Dev nD) : W1 m ρ c (Proc.devRef .tc main_v1) = val_main_v1 (F := Ideal) (m ((c : Thread nD τ).loc main_arg1)) := by
  show StableHlo.after hostOps0 (W0 m ρ c) (Proc.devRef .tc main_v1) = _
  after_results
  rfl

/-- The edges' destinations. -/
theorem dst_list (c : Dev nD) : W1 m ρ c (Proc.devRef .tc main_v3) = val_main_v3 (F := Ideal) (m ((c : Thread nD τ).loc main_arg1)) := by
  show StableHlo.after hostOps0 (W0 m ρ c) (Proc.devRef .tc main_v3) = _
  after_results
  rfl

/-- The sources with one self loop per node appended. -/
theorem src_loop (c : Dev nD) : W1 m ρ c (Proc.devRef .tc main_v5) = val_main_v5 (F := Ideal) (m ((c : Thread nD τ).loc main_arg1)) := by
  show StableHlo.after hostOps0 (W0 m ρ c) (Proc.devRef .tc main_v5) = _
  after_results
  rfl

/-- The destinations with one self loop per node appended. -/
theorem dst_loop (c : Dev nD) : W1 m ρ c (Proc.devRef .tc main_v6) = val_main_v6 (F := Ideal) (m ((c : Thread nD τ).loc main_arg1)) := by
  show StableHlo.after hostOps0 (W0 m ρ c) (Proc.devRef .tc main_v6) = _
  after_results
  rfl

/-- The symmetric normalisation of the self-looped edges. -/
theorem norm (c : Dev nD) : W1 m ρ c (Proc.devRef .tc main_v26) = val_main_v26 (F := Ideal) (m ((c : Thread nD τ).loc main_arg1)) := by
  show StableHlo.after hostOps0 (W0 m ρ c) (Proc.devRef .tc main_v26) = _
  after_results_simp
  rfl

/-- The first stretch writes no argument. -/
theorem kept_X (c : Dev nD) : W1 m ρ c (Proc.devRef .tc main_arg0) = m ((c : Thread nD τ).loc main_arg0) := by
  show StableHlo.after hostOps0 (W0 m ρ c) (Proc.devRef .tc main_arg0) = _
  after_results
theorem kept_W (c : Dev nD) : W1 m ρ c (Proc.devRef .tc main_arg2) = m ((c : Thread nD τ).loc main_arg2) := by
  show StableHlo.after hostOps0 (W0 m ρ c) (Proc.devRef .tc main_arg2) = _
  after_results
theorem kept_b (c : Dev nD) : W1 m ρ c (Proc.devRef .tc main_arg3) = m ((c : Thread nD τ).loc main_arg3) := by
  show StableHlo.after hostOps0 (W0 m ρ c) (Proc.devRef .tc main_arg3) = _
  after_results

/-! ## Across the first region -/

/-- The region's result array holds the product X · W. -/
theorem product (c : Dev nD) :
    W2 m ρ c (Proc.devRef .tc main_v27)
      = val_main_v27 (F := Ideal) (m ((c : Thread nD τ).loc main_arg0)) (m ((c : Thread nD τ).loc main_arg2)) := by
  refine (W2_arr m ρ c 2).trans ((Cert.KernelIdeal.MatmulRegion.product_value (V1 m ρ) c).trans ?_)
  show val_main_v27 (F := Ideal) (W1 m ρ c (Proc.devRef .tc main_arg0)) (W1 m ρ c (Proc.devRef .tc main_arg2)) = _
  rw [kept_X, kept_W]

/-! ## Between the regions

Each of the three host stretches between the regions is read from ANY contents `Vv` it starts at; the chain through
the boundaries then instantiates them. -/

section Stretch

variable (Vv : Valuation τ sig (Elt Ideal))
variable (x1 : (⟨S2x1280000, .i32⟩ : BufTy).Contents (Elt Ideal)) (x3 : (⟨S64, .f32⟩ : BufTy).Contents (Elt Ideal))

/-- The stretch after the first region leaves the aggregate of the region's result. -/
theorem pre_act_of (h5 : Vv (Proc.devRef .tc main_v5) = val_main_v5 (F := Ideal) x1) (h6 : Vv (Proc.devRef .tc main_v6) = val_main_v6 (F := Ideal) x1)
    (h26 : Vv (Proc.devRef .tc main_v26) = val_main_v26 (F := Ideal) x1) (h3 : Vv (Proc.devRef .tc main_arg3) = x3) :
    StableHlo.after hostOps1 Vv (Proc.devRef .tc main_v43) = preAct (F := Ideal) (Vv (Proc.devRef .tc main_v27)) x1 x3 := by
  after_results_simp
  rw [h5, h6, h26, h3]
  rfl

/-- It writes neither edge list. -/
theorem src_through1 : StableHlo.after hostOps1 Vv (Proc.devRef .tc main_v1) = Vv (Proc.devRef .tc main_v1) := by
  after_results_simp
theorem dst_through1 : StableHlo.after hostOps1 Vv (Proc.devRef .tc main_v3) = Vv (Proc.devRef .tc main_v3) := by
  after_results_simp

/-- The rectifier's three operations leave the larger of the aggregate and zero. -/
theorem relu_of : StableHlo.after hostOps1_1 Vv (Proc.devRef .tc main_v44) = rectify (F := Ideal) (Vv (Proc.devRef .tc main_v43)) := by
  after_results
  rfl

/-- They write neither edge list. -/
theorem src_through2 : StableHlo.after hostOps1_1 Vv (Proc.devRef .tc main_v1) = Vv (Proc.devRef .tc main_v1) := by
  after_results
theorem dst_through2 : StableHlo.after hostOps1_1 Vv (Proc.devRef .tc main_v3) = Vv (Proc.devRef .tc main_v3) := by
  after_results

/-- The stretch before the second region gathers the feature rows at the edges' sources, -/
theorem rows_src_of (h1 : Vv (Proc.devRef .tc main_v1) = val_main_v1 (F := Ideal) x1) :
    StableHlo.after hostOps1_2 Vv (Proc.devRef .tc main_v51) = rowsSrc (F := Ideal) (Vv (Proc.devRef .tc main_v44)) x1 := by
  after_results_simp
  rw [h1]
  rfl

/-- and at their destinations, -/
theorem rows_dst_of (h3 : Vv (Proc.devRef .tc main_v3) = val_main_v3 (F := Ideal) x1) :
    StableHlo.after hostOps1_2 Vv (Proc.devRef .tc main_v58) = rowsDst (F := Ideal) (Vv (Proc.devRef .tc main_v44)) x1 := by
  after_results_simp
  rw [h3]
  rfl

/-- and leaves the sources where they were. -/
theorem src_through3 : StableHlo.after hostOps1_2 Vv (Proc.devRef .tc main_v1) = Vv (Proc.devRef .tc main_v1) := by
  after_results_simp

end Stretch

/-- The edge lists when the rectifier has run. -/
theorem src_mid (c : Dev nD) : W4 m ρ c (Proc.devRef .tc main_v1) = val_main_v1 (F := Ideal) (m ((c : Thread nD τ).loc main_arg1)) :=
  (src_through2 (W3 m ρ c)).trans ((src_through1 (W2 m ρ c)).trans ((W2_of_ne m ρ c main_v1 (by decide)).trans (src_list m ρ c)))
theorem dst_mid (c : Dev nD) : W4 m ρ c (Proc.devRef .tc main_v3) = val_main_v3 (F := Ideal) (m ((c : Thread nD τ).loc main_arg1)) :=
  (dst_through2 (W3 m ρ c)).trans ((dst_through1 (W2 m ρ c)).trans ((W2_of_ne m ρ c main_v3 (by decide)).trans (dst_list m ρ c)))

/-- The node features, from the first region's result. -/
theorem feat (c : Dev nD) :
    W4 m ρ c (Proc.devRef .tc main_v44) = nodeFeat (F := Ideal) (W2 m ρ c (Proc.devRef .tc main_v27)) (m ((c : Thread nD τ).loc main_arg1)) (m ((c : Thread nD τ).loc main_arg3)) := by
  refine (relu_of (W3 m ρ c)).trans ?_
  rw [show W3 m ρ c (Proc.devRef .tc main_v43) = preAct (F := Ideal) (W2 m ρ c (Proc.devRef .tc main_v27)) (m ((c : Thread nD τ).loc main_arg1)) (m ((c : Thread nD τ).loc main_arg3)) from
    pre_act_of (W2 m ρ c) _ _ ((W2_of_ne m ρ c main_v5 (by decide)).trans (src_loop m ρ c)) ((W2_of_ne m ρ c main_v6 (by decide)).trans (dst_loop m ρ c))
      ((W2_of_ne m ρ c main_v26 (by decide)).trans (norm m ρ c)) ((W2_of_ne m ρ c main_arg3 (by decide)).trans (kept_b m ρ c))]
  rfl

/-- The feature rows at the edges' sources, from the first region's result. -/
theorem rows_src (c : Dev nD) :
    W5 m ρ c (Proc.devRef .tc main_v51)
      = rowsSrc (F := Ideal) (nodeFeat (F := Ideal) (W2 m ρ c (Proc.devRef .tc main_v27)) (m ((c : Thread nD τ).loc main_arg1)) (m ((c : Thread nD τ).loc main_arg3))) (m ((c : Thread nD τ).loc main_arg1)) :=
  (rows_src_of (W4 m ρ c) _ (src_mid m ρ c)).trans (by rw [feat])

/-- The feature rows at the edges' destinations, from the first region's result. -/
theorem rows_dst (c : Dev nD) :
    W5 m ρ c (Proc.devRef .tc main_v58)
      = rowsDst (F := Ideal) (nodeFeat (F := Ideal) (W2 m ρ c (Proc.devRef .tc main_v27)) (m ((c : Thread nD τ).loc main_arg1)) (m ((c : Thread nD τ).loc main_arg3))) (m ((c : Thread nD τ).loc main_arg1)) :=
  (rows_dst_of (W4 m ρ c) _ (dst_mid m ρ c)).trans (by rw [feat])

/-- The edges' sources are still there when the second region is entered. -/
theorem src_kept (c : Dev nD) :
    W5 m ρ c (Proc.devRef .tc main_v1) = val_main_v1 (F := Ideal) (m ((c : Thread nD τ).loc main_arg1)) :=
  (src_through3 (W4 m ρ c)).trans (src_mid m ρ c)

/-! ## Across the second region -/

/-- The region's result array holds the edge scores of the rows it found. -/
theorem scores (c : Dev nD) :
    W6 m ρ c (Proc.devRef .tc main_v59)
      = edgeScore (F := Ideal) (W5 m ρ c (Proc.devRef .tc main_v51)) (W5 m ρ c (Proc.devRef .tc main_v58)) :=
  (W6_arr m ρ c 2).trans (Cert.KernelIdeal.EdgeRegion.score_value (V5 m ρ) c)

/-! ## The last stretch -/

/-- The output, from the edges' sources and the second region's result. -/
theorem output (c : Dev nD) :
    W7 m ρ c (Proc.devRef .tc main_v70)
      = gateOut (F := Ideal) (W6 m ρ c (Proc.devRef .tc main_v1)) (W6 m ρ c (Proc.devRef .tc main_v59)) := by
  show StableHlo.after hostOps2 (W6 m ρ c) (Proc.devRef .tc main_v70) = _
  after_results_simp
  rfl

/-! ## Composed -/

/-- The kernel program's result buffer ends at the reference's result stage of the launch arguments. -/
theorem kernel_value (c : Dev nD) :
    W7 m ρ c (Proc.devRef .tc main_v70)
      = val_main_v74 (F := Ideal) (m ((c : Thread nD τ).loc main_arg0)) (m ((c : Thread nD τ).loc main_arg1))
          (m ((c : Thread nD τ).loc main_arg2)) (m ((c : Thread nD τ).loc main_arg3)) := by
  rw [output, scores, W6_of_ne m ρ c main_v1 (by decide), src_kept, rows_src, rows_dst, product, ← reference_eq]

end Cert.KernelIdeal.Stretches

end
-- ==== Proof.lean ====
/-
  A graph layer with a gate, against its plain reference, on the extended reals.

  Both programs take node features X (80,000 × 64), an edge list (2 × 1,280,000), a weight matrix W (64 × 64) and a
  bias b (64). They add a self loop to every node, normalise every edge by the inverse square roots of the degrees of
  its ends, aggregate the rows of X · W along the edges into node features H = max(· + b, 0), score every edge by
  Σ_k |H[src] k − H[dst] k|^2, average the scores per source node and pass the averages through tanh.
  The kernel program computes X · W in a first region, block of rows by block of rows, after narrowing both factors
  to a shorter float format, and the edge scores in a second region, block of edges by block of edges, squaring by a
  product instead of through the power function. On the extended reals narrowing is the identity, a blocked product
  into a zero accumulator is the whole product, and |d|^2 = d · d for every d, infinite ones included; everything
  else the two programs do is the same host operations on the same values. So the two results are one function of
  the arguments, and no finiteness of the inputs is used.

  The three frames: the kernel programs' are the generated ones; the reference's is its generated run with the
  result dropped. The idealisation rewrote nothing, so its claim is trivial. The value claim: the kernel program's
  run, re-posted with its result buffer named, ends at the fold of its segments read at that buffer, which is
  identified stage by stage with the reference's result term.
-/
import proofs.«172915_j51539607552123_1_alg».proof.Defs
import proofs.«172915_j51539607552123_1_alg».proof.Proof.Gen.Kernel
import proofs.«172915_j51539607552123_1_alg».proof.Proof.Gen.Kernel.Skeleton
import proofs.«172915_j51539607552123_1_alg».proof.Proof.Gen.Kernel.Launch
import proofs.«172915_j51539607552123_1_alg».proof.Proof.Gen.Kernel.Points
import proofs.«172915_j51539607552123_1_alg».proof.Proof.Gen.Kernel.Frame
import proofs.«172915_j51539607552123_1_alg».proof.Proof.Gen.KernelIdeal
import proofs.«172915_j51539607552123_1_alg».proof.Proof.Gen.KernelIdeal.Skeleton
import proofs.«172915_j51539607552123_1_alg».proof.Proof.Gen.KernelIdeal.Launch
import proofs.«172915_j51539607552123_1_alg».proof.Proof.Gen.KernelIdeal.Points
import proofs.«172915_j51539607552123_1_alg».proof.Proof.Gen.KernelIdeal.Frame
import proofs.«172915_j51539607552123_1_alg».proof.Proof.Gen.ReferenceIdeal
import proofs.«172915_j51539607552123_1_alg».proof.Proof.Gen.ReferenceIdeal.Run
import proofs.«172915_j51539607552123_1_alg».proof.Proof.Gen.ReferenceIdeal.Read
import proofs.«172915_j51539607552123_1_alg».proof.Proof.Gen.Pre_finite_inputs
import proofs.«172915_j51539607552123_1_alg».proof.Proof.KernelRun
import proofs.«172915_j51539607552123_1_alg».proof.Proof.Stretches
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result stage of those
    arguments in their result buffers. -/
theorem algebraic : Cert.algebraic_KernelIdeal_ReferenceIdeal := by
  intro m ρ m' ρ' _ hagree
  refine ⟨fun c => Cert.ReferenceIdeal.Read.val_main_v74 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Stretches.kernel_value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v74_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
